-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x2048x160 : Shape := ⟨3, ![1, 2048, 160]⟩
abbrev S2048x160 : Shape := ⟨2, ![2048, 160]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .bf16⟩
  | .hbm, ⟨12, _⟩ => ⟨S16x2048x160, .bf16⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .bf16⟩
  | .local _ .vmem, ⟨7, _⟩ => ⟨S1x512x160, .bf16⟩
  | .local _ .vmem, ⟨8, _⟩ => ⟨S1x512x160, .bf16⟩
  | .local _ .vmem, ⟨9, _⟩ => ⟨S1x512x160, .bf16⟩
  | .local _ .vmem, ⟨10, _⟩ => ⟨S1x512x160, .f32⟩
  | .local _ .vmem, ⟨11, _⟩ => ⟨S1x512x160, .f32⟩
  | .local _ .vmem, ⟨12, _⟩ => ⟨S160x160, .f32⟩
  | .local _ .vmem, ⟨13, _⟩ => ⟨S1x160, .f32⟩
  | .local _ .vmem, ⟨14, _⟩ => ⟨S1x2048x160, .bf16⟩
  | .local _ .vmem, ⟨15, _⟩ => ⟨S1x2048x160, .bf16⟩
  | .local _ .vmem, ⟨16, _⟩ => ⟨S1x2048x160, .bf16⟩
  | .local _ .vmem, ⟨17, _⟩ => ⟨S1x2048x160, .bf16⟩
  | .local _ .vmem, ⟨18, _⟩ => ⟨S1x512x160, .f32⟩
  | .local _ .vmem, ⟨19, _⟩ => ⟨S1x512x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  bitsLt_bf16_f32 : FTy.bits .bf16 < FTy.bits .f32
  shapeCasts_S512x160_S1x512x160 : S512x160.ShapeCasts S1x512x160
  packedbf16_S1x512x160_S1x512x160_0_0_0 : (Rect.unit (s := S1x512x160) ![0, 0, 0] S1x512x160.size inb_S1x512x160_S1x512x160_0_0_0).PackedRows (EltTy.packing .bf16)
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  reduces_S512x2048_S512 : S512x2048.Reduces [1] S512
  shapeCasts_S512_S512x1 : S512.ShapeCasts S512x1
  broadcasts_S512x1_S512x2048 : S512x1.Broadcasts S512x2048
  broadcasts_S512x1_S512x160 : S512x1.Broadcasts S512x160
  dot_S512x160_S160x160_S512x160_1_0_0_1_n_n_wf : DotDims.WF S512x160 S160x160 S512x160 [1] [0] [0] [1] [] []
  dot_S512x160_S2048x160_S512x2048_1_1_0_0_n_n_wf : DotDims.WF S512x160 S2048x160 S512x2048 [1] [1] [0] [0] [] []
  dot_S512x2048_S2048x160_S512x160_1_0_0_1_n_n_wf : DotDims.WF S512x2048 S2048x160 S512x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .bf16 = 32 ∨ (Rect.block (s := S16x2048x160) S1x512x160.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .bf16 = 32 ∨ (Rect.block (s := S16x2048x160) S1x512x160.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x160.size a ≤ S16x2048x160.size a
  hwx1_0 : ∀ i : grid1.Coords, EltTy.bits .f32 = 32 ∨ (Rect.block (s := S16x2048x160) S1x512x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .bf16 = 32 ∨ (Rect.block (s := S16x2048x160) S1x2048x160.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .bf16 = 32 ∨ (Rect.block (s := S16x2048x160) S1x2048x160.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x160.size a ≤ S16x2048x160.size a
  hwx1_5 : ∀ i : grid1.Coords, EltTy.bits .f32 = 32 ∨ (Rect.block (s := S16x2048x160) S1x512x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S512x160_S2048x160_S512x2048_1_1_0_0_n_n : DotDims S512x160 S2048x160 S512x2048 where
  lhsContracting := [1]
  rhsContracting := [1]
  lhsNonContracting := [0]
  rhsNonContracting := [0]
  lhsBatch := []
  rhsBatch := []
  wf := dot_S512x160_S2048x160_S512x2048_1_1_0_0_n_n_wf
def dot_S512x2048_S2048x160_S512x160_1_0_0_1_n_n : DotDims S512x2048 S2048x160 S512x160 where
  lhsContracting := [1]
  rhsContracting := [0]
  lhsNonContracting := [0]
  rhsNonContracting := [1]
  lhsBatch := []
  rhsBatch := []
  wf := dot_S512x2048_S2048x160_S512x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.RealLaw.lean ====
/-
  Extended reals that are real numbers, and the one algebraic law this certificate needs.

  A softmax-weighted sum can be normalised before or after the weighted sum is taken: for real scores
  `s j`, real values `v j`, `M = max_j s j`, `p j = exp (s j - M)` and `l = ∑ j, p j`,
      (∑ j, p j * v j) * (1 / l) = ∑ j, (p j / l) * v j.
  On the extended reals multiplication does not distribute over sums in general, so the law is proved where every
  quantity is a real number: the scores are real, hence so is their maximum (the index set is not empty), every
  weight `p j` is a positive real, and their sum `l` is a positive real, so both quotients are products with the
  real `1 / l` and the identity is distributivity in ℝ.
-/
import Idealize.ShloMosaic.PureOps.Ideal

noncomputable section

namespace Cert.Attn

open Idealize.ShloMosaic

/-- An extended real that is (the image of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_of_ne {x : EReal} (h1 : x ≠ ⊤) (h2 : x ≠ ⊥) : IsReal x :=
  ⟨x.toReal, (EReal.coe_toReal h1 h2).symm⟩

/-- The coercion commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals over a nonempty index set, folded from `-∞`, is real. -/
theorem isReal_fold_max {J : Type*} [Fintype J] [Nonempty J] (s : J → EReal) (hs : ∀ j, IsReal (s j)) :
    IsReal ((Finset.univ : Finset J).fold max ⊥ s) := by
  refine isReal_of_ne ?_ ?_
  · refine ne_of_lt ?_
    rw [Finset.fold_max_lt]
    exact ⟨bot_lt_top, fun j _ => lt_top_iff_ne_top.mpr (hs j).ne_top⟩
  · obtain ⟨j0⟩ := (inferInstance : Nonempty J)
    have h : s j0 ≤ (Finset.univ : Finset J).fold max ⊥ s :=
      (Finset.le_fold_max (s j0)).mpr (Or.inr ⟨j0, Finset.mem_univ _, le_rfl⟩)
    intro hb
    rw [hb] at h
    exact (hs j0).ne_bot (le_bot_iff.mp h)

/-- THE LAW: normalising after the weighted sum (by the reciprocal of the weights' sum) or before it (each weight
    divided by the sum) gives the same extended real, when the scores and the values are real. -/
theorem normalize_after_eq_before {J : Type*} [Fintype J] [Nonempty J] (s v : J → EReal)
    (hs : ∀ j, IsReal (s j)) (hv : ∀ j, IsReal (v j)) :
    (∑ j, Ideal.exp (s j - (Finset.univ : Finset J).fold max ⊥ s) * v j)
        * Ideal.div 1 (∑ j, Ideal.exp (s j - (Finset.univ : Finset J).fold max ⊥ s))
      = ∑ j, Ideal.div (Ideal.exp (s j - (Finset.univ : Finset J).fold max ⊥ s))
          (∑ j', Ideal.exp (s j' - (Finset.univ : Finset J).fold max ⊥ s)) * v j := by
  obtain ⟨mr, hm⟩ := isReal_fold_max s hs
  choose sr hsr using hs
  choose vr hvr using hv
  rw [hm]
  have hp : ∀ j, Ideal.exp (s j - (mr : EReal)) = ((Real.exp (sr j - mr) : ℝ) : EReal) := fun j => by
    rw [hsr j, ← EReal.coe_sub]; rfl
  simp only [hp, hvr]
  rw [coe_sum]
  have hL : (∑ j, Real.exp (sr j - mr)) ≠ 0 :=
    ne_of_gt (Finset.sum_pos (fun j _ => Real.exp_pos _) Finset.univ_nonempty)
  simp only [Ideal.div_coe hL, ← EReal.coe_mul, coe_sum]
  rw [show (1 : EReal) = ((1 : ℝ) : EReal) from rfl, ← EReal.coe_mul, ← EReal.coe_mul]
  refine congrArg _ ?_
  rw [Finset.sum_mul]
  refine Finset.sum_congr rfl fun j _ => by ring

/-! ## The float literals of the two programs, as the extended reals they denote -/

/-- The pattern of `-inf` denotes `⊥`. -/
theorem ofBits_neg_inf : Ideal.ofBits .f32 0xFF800000#32 = ⊥ := by
  simp [Ideal.ofBits, Ideal.ieee]

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

end Cert.Attn

end
-- ==== Proof.Spec.lean ====
/-
  The attention layer both programs compute, as functions of the eight argument arrays on the extended reals.

  With `q = x·Wq + bq`, `k = y·Wk + bk`, `v = y·Wv + bv` (rows of a [16, 2048, 160] array times a [160, 160]
  matrix plus a bias row), the scores are `s[n, i, j] = ∑ e, q[n, i, e] · k[n, j, e]`, a row's weights are
  `p[n, i, j] = exp (s[n, i, j] − max_j s[n, i, j])` and their sum is `l[n, i]`. The kernel forms the weighted sum of
  the values first and multiplies by `1 / l` afterwards (`outAfter`); the reference divides each weight by `l` first
  (`outBefore`); both add `x`. The two agree when every argument entry is a real number (`outAfter_eq_outBefore`):
  then every score is real and the law of RealLaw.lean applies row by row.
-/
import proofs.«176371_g83305185673742_cont_9to1c4b_147_7_alg».proof.Proof.RealLaw
import Idealize.ShloMosaic.Lib.ValueIdx

noncomputable section

namespace Cert.Attn

open Idealize.ShloMosaic Idealize.ShloMosaic.ValueIdx

/-- A [16, 2048, 160] array, a [160, 160] matrix and a [160] row of extended reals. -/
abbrev Arr3 : Type := (⟨3, ![16, 2048, 160]⟩ : Shape).Idx → EReal
abbrev Mat : Type := (⟨2, ![160, 160]⟩ : Shape).Idx → EReal
abbrev Row : Type := (⟨1, ![160]⟩ : Shape).Idx → EReal

/-- A linear layer at batch `n`, row `r`, output feature `e`: the row of `X` times the column of `W`, plus the bias. -/
def lin (X : Arr3) (W : Mat) (b : Row) (n : Fin 16) (r : Fin 2048) (e : Fin 160) : EReal :=
  (∑ d : Fin 160, X (ix3 n r d) * W (ix2 d e)) + b (ix1 e)

/-- The score of query row `i` against key row `j` in batch `n`. -/
def score (q k : Fin 16 → Fin 2048 → Fin 160 → EReal) (n : Fin 16) (i j : Fin 2048) : EReal :=
  ∑ e : Fin 160, q n i e * k n j e

/-- A row's largest score, folded from `-∞`. -/
def rowMax (s : Fin 16 → Fin 2048 → Fin 2048 → EReal) (n : Fin 16) (i : Fin 2048) : EReal :=
  (Finset.univ : Finset (Fin 2048)).fold max ⊥ (s n i)

/-- The unnormalised softmax weight. -/
def weight (s : Fin 16 → Fin 2048 → Fin 2048 → EReal) (n : Fin 16) (i j : Fin 2048) : EReal :=
  Ideal.exp (s n i j - rowMax s n i)

/-- A row's sum of weights. -/
def total (s : Fin 16 → Fin 2048 → Fin 2048 → EReal) (n : Fin 16) (i : Fin 2048) : EReal :=
  ∑ j : Fin 2048, weight s n i j

section
variable (X Y : Arr3) (Wq : Mat) (bq : Row) (Wk : Mat) (bk : Row) (Wv : Mat) (bv : Row)

/-- The scores of the layer. -/
def scores : Fin 16 → Fin 2048 → Fin 2048 → EReal := score (lin X Wq bq) (lin Y Wk bk)

/-- The output, normalised AFTER the weighted sum of the values (the kernel's arrangement). -/
def outAfter (n : Fin 16) (i : Fin 2048) (e : Fin 160) : EReal :=
  (∑ j : Fin 2048, weight (scores X Y Wq bq Wk bk) n i j * lin Y Wv bv n j e)
      * Ideal.div 1 (total (scores X Y Wq bq Wk bk) n i)
    + X (ix3 n i e)

/-- The output, each weight normalised BEFORE the weighted sum (the reference's arrangement). -/
def outBefore (n : Fin 16) (i : Fin 2048) (e : Fin 160) : EReal :=
  (∑ j : Fin 2048, Ideal.div (weight (scores X Y Wq bq Wk bk) n i j) (total (scores X Y Wq bq Wk bk) n i)
      * lin Y Wv bv n j e)
    + X (ix3 n i e)

/-- The result array: `outAfter` at an index's three coordinates. -/
def result : Arr3 := fun idx => outAfter X Y Wq bq Wk bk Wv bv (idx 0) (idx 1) (idx 2)

variable {X Y Wq bq Wk bk Wv bv}

theorem lin_isReal {X : Arr3} {W : Mat} {b : Row} (hX : ∀ i, IsReal (X i)) (hW : ∀ i, IsReal (W i))
    (hb : ∀ i, IsReal (b i)) (n : Fin 16) (r : Fin 2048) (e : Fin 160) : IsReal (lin X W b n r e) :=
  (IsReal.sum _ _ fun d _ => (hX _).mul (hW _)).add (hb _)

theorem score_isReal {q k : Fin 16 → Fin 2048 → Fin 160 → EReal} (hq : ∀ n i e, IsReal (q n i e))
    (hk : ∀ n i e, IsReal (k n i e)) (n : Fin 16) (i j : Fin 2048) : IsReal (score q k n i j) :=
  IsReal.sum _ _ fun e _ => (hq n i e).mul (hk n j e)

/-- With real arguments the two arrangements agree, entry by entry. -/
theorem outAfter_eq_outBefore (hX : ∀ i, IsReal (X i)) (hY : ∀ i, IsReal (Y i)) (hWq : ∀ i, IsReal (Wq i))
    (hbq : ∀ i, IsReal (bq i)) (hWk : ∀ i, IsReal (Wk i)) (hbk : ∀ i, IsReal (bk i)) (hWv : ∀ i, IsReal (Wv i))
    (hbv : ∀ i, IsReal (bv i)) (n : Fin 16) (i : Fin 2048) (e : Fin 160) :
    outAfter X Y Wq bq Wk bk Wv bv n i e = outBefore X Y Wq bq Wk bk Wv bv n i e := by
  unfold outAfter outBefore
  refine congrArg (· + X (ix3 n i e)) ?_
  have hs : ∀ j, IsReal (scores X Y Wq bq Wk bk n i j) := fun j =>
    score_isReal (lin_isReal hX hWq hbq) (lin_isReal hY hWk hbk) n i j
  have hv : ∀ j, IsReal (lin Y Wv bv n j e) := fun j => lin_isReal hY hWv hbv n j e
  exact normalize_after_eq_before (scores X Y Wq bq Wk bk n i) (fun j => lin Y Wv bv n j e) hs hv

end

end Cert.Attn

end
-- ==== Proof.KernelPay.lean ====
/-
  The kernels' bodies at one element of the block they store, on the extended reals.

  The projection kernel stores, at row `r` and feature `e` of its block, the row of the `y` block times the column of
  the weight matrix plus the bias entry (the change of float format is the identity). The attention kernel stores, at
  row `r` and feature `e`: with `q` the projected row of the `x` block, `S j = ∑ e', q e' · k[j, e']` the scores
  against every key row, `M` their maximum folded from `-∞`, `p j = exp (S j − M)`: `(∑ j, p j · v[j, e]) · (1 / ∑ j, p j) + x[r, e]`.
-/
import proofs.«176371_g83305185673742_cont_9to1c4b_147_7_alg».proof.Proof.RealLaw
import proofs.«176371_g83305185673742_cont_9to1c4b_147_7_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.ValueIdx Cert.Attn
open Cert.KernelIdeal Cert.KernelIdeal.Gen

/-! ## The three matrix products read at an element

Each is the sum over the one contracted coordinate of the products of the operands' entries; the operand indices at an
output index and a contraction position are computed axis by axis. -/

/-- [512, 160] · [160, 160]: on the left operand the row is the output's row … -/
theorem lhs_proj_0 (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
/-- … and the column is the contracted coordinate; -/
theorem lhs_proj_1 (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
/-- on the right operand the row is the contracted coordinate … -/
theorem rhs_proj_0 (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q
/-- … and the column is the output's column. -/
theorem rhs_proj_1 (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- The [512, 160] · [160, 160] product into the zero splat, at row `r` and column `e`: `∑ d, a[r, d] · w[d, e]`. -/
theorem matmul_proj_apply {φ₁ φ₂ : FTy} (a : FVec Ideal S512x160 φ₁) (w : FVec Ideal S160x160 φ₂) (r : Fin 512) (e : Fin 160) :
    matmul dot_S512x160_S160x160_S512x160_1_0_0_1_n_n none a w (constant (F := Ideal) S512x160 .f32 0x00000000#32) (ix2 r e)
      = ∑ d : Fin 160, a (ix2 r d) * w (ix2 d e) := by
  simp only [matmul]
  rw [Ideal.matmul_constant_zero_apply, ← Equiv.sum_comp (ValueIdx.contrEquiv1 dot_S512x160_S160x160_S512x160_1_0_0_1_n_n 160 rfl rfl).symm]
  refine Finset.sum_congr rfl fun k _ => ?_
  have hk := ValueIdx.contrEquiv1_symm_val dot_S512x160_S160x160_S512x160_1_0_0_1_n_n 160 rfl rfl k
  have el : dot_S512x160_S160x160_S512x160_1_0_0_1_n_n.lhsIdx (ix2 r e) ((ValueIdx.contrEquiv1 dot_S512x160_S160x160_S512x160_1_0_0_1_n_n 160 rfl rfl).symm k) = ix2 r k := funext fun c => Fin.ext (by
    match c with
    | ⟨0, _⟩ => exact lhs_proj_0 _ _
    | ⟨1, _⟩ => exact (lhs_proj_1 _ _).trans hk)
  have er : dot_S512x160_S160x160_S512x160_1_0_0_1_n_n.rhsIdx (ix2 r e) ((ValueIdx.contrEquiv1 dot_S512x160_S160x160_S512x160_1_0_0_1_n_n 160 rfl rfl).symm k) = ix2 k e := funext fun c => Fin.ext (by
    match c with
    | ⟨0, _⟩ => exact (rhs_proj_0 _ _).trans hk
    | ⟨1, _⟩ => exact rhs_proj_1 _ _)
  rw [el, er]

/-- [512, 160] · [2048, 160]ᵀ: on the left operand the row is the output's row … -/
theorem lhs_score_0 (i : S512x2048.Idx) (q : dot_S512x160_S2048x160_S512x2048_1_1_0_0_n_n.contr.Idx) :
    (dot_S512x160_S2048x160_S512x2048_1_1_0_0_n_n.lhsIdx i q 0).val = (i 0).val := by
  unfold DotDims.lhsIdx
  rw [dif_neg (show ¬(0 : Fin S512x160.rank) ∈ dot_S512x160_S2048x160_S512x2048_1_1_0_0_n_n.lhsBatch by decide), dif_pos (show (0 : Fin S512x160.rank) ∈ dot_S512x160_S2048x160_S512x2048_1_1_0_0_n_n.lhsNonContracting by decide)]
  rfl
/-- … and the column is the contracted coordinate; -/
theorem lhs_score_1 (i : S512x2048.Idx) (q : dot_S512x160_S2048x160_S512x2048_1_1_0_0_n_n.contr.Idx) :
    (dot_S512x160_S2048x160_S512x2048_1_1_0_0_n_n.lhsIdx i q 1).val = (q ⟨0, by decide⟩).val :=
  dot_S512x160_S2048x160_S512x2048_1_1_0_0_n_n.lhsIdx_val_of_single rfl i q
/-- on the right operand the row is the output's column … -/
theorem rhs_score_0 (i : S512x2048.Idx) (q : dot_S512x160_S2048x160_S512x2048_1_1_0_0_n_n.contr.Idx) :
    (dot_S512x160_S2048x160_S512x2048_1_1_0_0_n_n.rhsIdx i q 0).val = (i 1).val := by
  unfold DotDims.rhsIdx
  rw [dif_neg (show ¬(0 : Fin S2048x160.rank) ∈ dot_S512x160_S2048x160_S512x2048_1_1_0_0_n_n.rhsBatch by decide), dif_pos (show (0 : Fin S2048x160.rank) ∈ dot_S512x160_S2048x160_S512x2048_1_1_0_0_n_n.rhsNonContracting by decide)]
  rfl
/-- … and the column is the contracted coordinate. -/
theorem rhs_score_1 (i : S512x2048.Idx) (q : dot_S512x160_S2048x160_S512x2048_1_1_0_0_n_n.contr.Idx) :
    (dot_S512x160_S2048x160_S512x2048_1_1_0_0_n_n.rhsIdx i q 1).val = (q ⟨0, by decide⟩).val :=
  dot_S512x160_S2048x160_S512x2048_1_1_0_0_n_n.rhsIdx_val_of_single rfl i q

/-- The [512, 160] · [2048, 160]ᵀ product into the zero splat, at row `r` and column `j`: `∑ e, a[r, e] · k[j, e]`. -/
theorem matmul_score_apply {φ₁ φ₂ : FTy} (a : FVec Ideal S512x160 φ₁) (k : FVec Ideal S2048x160 φ₂) (r : Fin 512) (j : Fin 2048) :
    matmul dot_S512x160_S2048x160_S512x2048_1_1_0_0_n_n none a k (constant (F := Ideal) S512x2048 .f32 0x00000000#32) (ix2 r j)
      = ∑ e : Fin 160, a (ix2 r e) * k (ix2 j e) := by
  simp only [matmul]
  rw [Ideal.matmul_constant_zero_apply, ← Equiv.sum_comp (ValueIdx.contrEquiv1 dot_S512x160_S2048x160_S512x2048_1_1_0_0_n_n 160 rfl rfl).symm]
  refine Finset.sum_congr rfl fun e _ => ?_
  have hk := ValueIdx.contrEquiv1_symm_val dot_S512x160_S2048x160_S512x2048_1_1_0_0_n_n 160 rfl rfl e
  have el : dot_S512x160_S2048x160_S512x2048_1_1_0_0_n_n.lhsIdx (ix2 r j) ((ValueIdx.contrEquiv1 dot_S512x160_S2048x160_S512x2048_1_1_0_0_n_n 160 rfl rfl).symm e) = ix2 r e := funext fun c => Fin.ext (by
    match c with
    | ⟨0, _⟩ => exact lhs_score_0 _ _
    | ⟨1, _⟩ => exact (lhs_score_1 _ _).trans hk)
  have er : dot_S512x160_S2048x160_S512x2048_1_1_0_0_n_n.rhsIdx (ix2 r j) ((ValueIdx.contrEquiv1 dot_S512x160_S2048x160_S512x2048_1_1_0_0_n_n 160 rfl rfl).symm e) = ix2 j e := funext fun c => Fin.ext (by
    match c with
    | ⟨0, _⟩ => exact rhs_score_0 _ _
    | ⟨1, _⟩ => exact (rhs_score_1 _ _).trans hk)
  rw [el, er]

/-- [512, 2048] · [2048, 160]: on the left operand the row is the output's row … -/
theorem lhs_mix_0 (i : S512x160.Idx) (q : dot_S512x2048_S2048x160_S512x160_1_0_0_1_n_n.contr.Idx) :
    (dot_S512x2048_S2048x160_S512x160_1_0_0_1_n_n.lhsIdx i q 0).val = (i 0).val := by
  unfold DotDims.lhsIdx
  rw [dif_neg (show ¬(0 : Fin S512x2048.rank) ∈ dot_S512x2048_S2048x160_S512x160_1_0_0_1_n_n.lhsBatch by decide), dif_pos (show (0 : Fin S512x2048.rank) ∈ dot_S512x2048_S2048x160_S512x160_1_0_0_1_n_n.lhsNonContracting by decide)]
  rfl
/-- … and the column is the contracted coordinate; -/
theorem lhs_mix_1 (i : S512x160.Idx) (q : dot_S512x2048_S2048x160_S512x160_1_0_0_1_n_n.contr.Idx) :
    (dot_S512x2048_S2048x160_S512x160_1_0_0_1_n_n.lhsIdx i q 1).val = (q ⟨0, by decide⟩).val :=
  dot_S512x2048_S2048x160_S512x160_1_0_0_1_n_n.lhsIdx_val_of_single rfl i q
/-- on the right operand the row is the contracted coordinate … -/
theorem rhs_mix_0 (i : S512x160.Idx) (q : dot_S512x2048_S2048x160_S512x160_1_0_0_1_n_n.contr.Idx) :
    (dot_S512x2048_S2048x160_S512x160_1_0_0_1_n_n.rhsIdx i q 0).val = (q ⟨0, by decide⟩).val :=
  dot_S512x2048_S2048x160_S512x160_1_0_0_1_n_n.rhsIdx_val_of_single rfl i q
/-- … and the column is the output's column. -/
theorem rhs_mix_1 (i : S512x160.Idx) (q : dot_S512x2048_S2048x160_S512x160_1_0_0_1_n_n.contr.Idx) :
    (dot_S512x2048_S2048x160_S512x160_1_0_0_1_n_n.rhsIdx i q 1).val = (i 1).val := by
  unfold DotDims.rhsIdx
  rw [dif_neg (show ¬(1 : Fin S2048x160.rank) ∈ dot_S512x2048_S2048x160_S512x160_1_0_0_1_n_n.rhsBatch by decide), dif_pos (show (1 : Fin S2048x160.rank) ∈ dot_S512x2048_S2048x160_S512x160_1_0_0_1_n_n.rhsNonContracting by decide)]
  rfl

/-- The [512, 2048] · [2048, 160] product into the zero splat, at row `r` and column `e`: `∑ j, p[r, j] · v[j, e]`. -/
theorem matmul_mix_apply {φ₁ φ₂ : FTy} (p : FVec Ideal S512x2048 φ₁) (v : FVec Ideal S2048x160 φ₂) (r : Fin 512) (e : Fin 160) :
    matmul dot_S512x2048_S2048x160_S512x160_1_0_0_1_n_n none p v (constant (F := Ideal) S512x160 .f32 0x00000000#32) (ix2 r e)
      = ∑ j : Fin 2048, p (ix2 r j) * v (ix2 j e) := by
  simp only [matmul]
  rw [Ideal.matmul_constant_zero_apply, ← Equiv.sum_comp (ValueIdx.contrEquiv1 dot_S512x2048_S2048x160_S512x160_1_0_0_1_n_n 2048 rfl rfl).symm]
  refine Finset.sum_congr rfl fun j _ => ?_
  have hk := ValueIdx.contrEquiv1_symm_val dot_S512x2048_S2048x160_S512x160_1_0_0_1_n_n 2048 rfl rfl j
  have el : dot_S512x2048_S2048x160_S512x160_1_0_0_1_n_n.lhsIdx (ix2 r e) ((ValueIdx.contrEquiv1 dot_S512x2048_S2048x160_S512x160_1_0_0_1_n_n 2048 rfl rfl).symm j) = ix2 r j := funext fun c => Fin.ext (by
    match c with
    | ⟨0, _⟩ => exact lhs_mix_0 _ _
    | ⟨1, _⟩ => exact (lhs_mix_1 _ _).trans hk)
  have er : dot_S512x2048_S2048x160_S512x160_1_0_0_1_n_n.rhsIdx (ix2 r e) ((ValueIdx.contrEquiv1 dot_S512x2048_S2048x160_S512x160_1_0_0_1_n_n 2048 rfl rfl).symm j) = ix2 j e := funext fun c => Fin.ext (by
    match c with
    | ⟨0, _⟩ => exact (rhs_mix_0 _ _).trans hk
    | ⟨1, _⟩ => exact rhs_mix_1 _ _)
  rw [el, er]

/-! ## The column forms of a row statistic, and the two row reductions -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the operand's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-- Row `r` of a [512, 2048] matrix with the coordinate `j` put back on the reduced axis is the entry `(r, j)`. -/
theorem lift_row (r : Fin 512) (j : Fin 2048) : reduces_S512x2048_S512.lift (ix1 r) j = ix2 r j :=
  funext fun c => Fin.ext (by match c with | ⟨0, _⟩ => rfl | ⟨1, _⟩ => rfl)

/-- The row maximum from `-∞`: the fold of `max` from `⊥` over the row's entries. -/
theorem rowMax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max ⊥ (fun j => s (ix2 r j)) := by
  refine (Ideal.multiReduction_maximumf_single s 0xFF800000#32 reduces_S512x2048_S512 (.inl rfl) rfl (ix1 r)).trans ?_
  have hb : (FloatOps.ofBits (F := Ideal) .f32 0xFF800000#32 : EReal) = ⊥ := ofBits_neg_inf
  have hf : s ∘ reduces_S512x2048_S512.lift (ix1 r) = fun j : Fin 2048 => s (ix2 r j) :=
    funext fun j => congrArg s (lift_row r j)
  rw [hb, hf]
  rfl

/-- The row sum: the sum of the row's entries. -/
theorem rowSum_apply (p : FVec Ideal S512x2048 .f32) (r : Fin 512) :
    multiReduction (F := Ideal) .add [1] S512 p 0x00000000#32 reduces_S512x2048_S512 (.inl rfl) rfl (ix1 r)
      = ∑ j : Fin 2048, p (ix2 r j) := by
  refine (Ideal.multiReduction_add_single p 0x00000000#32 reduces_S512x2048_S512 (.inl rfl) rfl (ix1 r)).trans ?_
  exact Finset.sum_congr rfl fun j _ => congrArg p (lift_row r j)

/-- A projected row: the row `r` of a [1, 512, 160] block times the column `e` of a matrix, plus the bias entry. -/
def projRow (x0 : Vec Ideal S1x512x160 .f32) (w : Vec Ideal S160x160 .f32) (b : Vec Ideal S1x160 .f32)
    (r : Fin 512) (e : Fin 160) : EReal :=
  (∑ d : Fin 160, x0 (ix3 (0 : Fin 1) r d) * w (ix2 d e)) + b (ix2 (0 : Fin 1) e)

/-! ## The projection kernel's block -/

/-- The product of the `y` block's rows with the weight matrix plus the broadcast bias row, at row `r` and feature `e`. -/
theorem proj_apply (x0 : Vec Ideal S1x512x160 .f32) (w : Vec Ideal S160x160 .f32) (b : Vec Ideal S1x160 .f32)
    (r : Fin 512) (e : Fin 160) :
    addf (matmul (φ₁ := .f32) (φ₂ := .f32) dot_S512x160_S160x160_S512x160_1_0_0_1_n_n none (shapeCast S512x160 x0 shapeCasts_S1x512x160_S512x160) w
          (constant (F := Ideal) S512x160 .f32 0x00000000#32))
        (broadcastTo S512x160 (shapeCast S1x160 b shapeCasts_S1x160_S1x160) broadcasts_S1x160_S512x160) (ix2 r e)
      = projRow x0 w b r e := by
  rw [addf_apply, matmul_proj_apply, broadcastTo_1b_ab_apply, shapeCast_self]
  unfold projRow
  refine congrArg (· + b (ix2 (0 : Fin 1) e)) (Finset.sum_congr rfl fun d _ => ?_)
  rw [shapeCast_1ab_ab_apply]

theorem k0_pay2_apply (x0 : Vec Ideal S1x512x160 .f32) (w : Vec Ideal S160x160 .f32) (b : Vec Ideal S1x160 .f32)
    (z : Fin 1) (r : Fin 512) (e : Fin 160) :
    k0_pay2 (F := Ideal) x0 w b (ix3 z r e) = projRow x0 w b r e := by
  unfold k0_pay2 k0_pay1
  dsimp only
  refine (shapeCast_ab_1ab_apply _ _ z r e).trans ?_
  rw [truncf_apply]
  exact proj_apply x0 w b r e

theorem k0_pay3_apply (x0 : Vec Ideal S1x512x160 .f32) (w : Vec Ideal S160x160 .f32) (b : Vec Ideal S1x160 .f32)
    (z : Fin 1) (r : Fin 512) (e : Fin 160) :
    k0_pay3 (F := Ideal) x0 w b (ix3 z r e) = projRow x0 w b r e := by
  unfold k0_pay3 k0_pay1
  dsimp only
  refine (shapeCast_ab_1ab_apply _ _ z r e).trans ?_
  rw [truncf_apply]
  exact proj_apply x0 w b r e

/-- The scores of query row `r` of the block against every key row of the batch's key block. -/
def rowScore (x0 : Vec Ideal S1x512x160 .f32) (w : Vec Ideal S160x160 .f32) (b : Vec Ideal S1x160 .f32)
    (kb : Vec Ideal S1x2048x160 .bf16) (r : Fin 512) (j : Fin 2048) : EReal :=
  ∑ e' : Fin 160, projRow x0 w b r e' * kb (ix3 (0 : Fin 1) j e')

/-! ## The attention kernel's block -/

/-- A matrix of queries against the key block: at row `r` and key `j`, the sum over the features of the products. -/
theorem score_apply (q : FVec Ideal S512x160 .bf16) (kb : Vec Ideal S1x2048x160 .bf16) (r : Fin 512) (j : Fin 2048) :
    matmul (φ₁ := .bf16) (φ₂ := .bf16) dot_S512x160_S2048x160_S512x2048_1_1_0_0_n_n none q (shapeCast S2048x160 kb shapeCasts_S1x2048x160_S2048x160)
        (constant (F := Ideal) S512x2048 .f32 0x00000000#32) (ix2 r j)
      = ∑ e' : Fin 160, q (ix2 r e') * kb (ix3 (0 : Fin 1) j e') := by
  rw [matmul_score_apply]
  refine Finset.sum_congr rfl fun e' _ => ?_
  rw [shapeCast_1ab_ab_apply]

/-- The exponential of a vector reads the exponential of the element. -/
theorem exp_at {s : Shape} {φ : FTy} (a : FVec Ideal s φ) (i : s.Idx) : exp a i = Ideal.exp (a i) := rfl

/-- The unnormalised weights of a score matrix: at row `r` and key `j`, the exponential of the score minus the row's
    maximum (folded from `-∞`, cast to a column and broadcast along the keys). -/
theorem weight_apply (s : FVec Ideal S512x2048 .f32) (r : Fin 512) (j : Fin 2048) :
    exp (subf s (broadcastTo S512x2048 (shapeCast S512x1
          (multiReduction (F := Ideal) .maximumf [1] S512 s 0xFF800000#32 reduces_S512x2048_S512 (.inl rfl) rfl)
          shapeCasts_S512_S512x1) broadcasts_S512x1_S512x2048)) (ix2 r j)
      = Ideal.exp (s (ix2 r j) - (Finset.univ : Finset (Fin 2048)).fold max ⊥ (fun j' => s (ix2 r j'))) := by
  rw [exp_at, subf_apply, broadcastTo_a1_ab_apply, shapeCast_a_a1_apply, rowMax_apply]

/-- The reciprocal of the weights' row sum (the sum cast to a column, `1` divided by it, broadcast along the features). -/
theorem recip_apply (p : FVec Ideal S512x2048 .f32) (r : Fin 512) (e : Fin 160) :
    broadcastTo S512x160 (divf (broadcast S512x1 (Scalar.ofBits (F := Ideal) .f32 0x3F800000#32))
        (shapeCast S512x1 (multiReduction (F := Ideal) .add [1] S512 p 0x00000000#32 reduces_S512x2048_S512 (.inl rfl) rfl)
          shapeCasts_S512_S512x1)) broadcasts_S512x1_S512x160 (ix2 r e)
      = Ideal.div 1 (∑ j : Fin 2048, p (ix2 r j)) := by
  rw [broadcastTo_a1_ab_apply, divf_apply, broadcast_apply, shapeCast_a_a1_apply, rowSum_apply]
  exact congrArg (Ideal.div · _) ofBits_one

theorem k1_pay1_apply (x0 : Vec Ideal S1x512x160 .f32) (w : Vec Ideal S160x160 .f32) (b : Vec Ideal S1x160 .f32)
    (kb vb : Vec Ideal S1x2048x160 .bf16) (z : Fin 1) (r : Fin 512) (e : Fin 160) :
    k1_pay1 (F := Ideal) x0 w b kb vb (ix3 z r e)
      = (∑ j : Fin 2048, Ideal.exp (rowScore x0 w b kb r j - (Finset.univ : Finset (Fin 2048)).fold max ⊥ (rowScore x0 w b kb r))
            * vb (ix3 (0 : Fin 1) j e))
          * Ideal.div 1 (∑ j : Fin 2048, Ideal.exp (rowScore x0 w b kb r j - (Finset.univ : Finset (Fin 2048)).fold max ⊥ (rowScore x0 w b kb r)))
        + x0 (ix3 (0 : Fin 1) r e) := by
  unfold k1_pay1
  dsimp only
  refine (shapeCast_ab_1ab_apply _ _ z r e).trans ?_
  rw [addf_apply, mulf_apply]
  -- the score matrix, named: at row `r` it is `rowScore`
  generalize hS : matmul (F := Ideal) (φ₁ := .bf16) (φ₂ := .bf16) dot_S512x160_S2048x160_S512x2048_1_1_0_0_n_n none _ _ _ = S
  have hSv : (fun j => S (ix2 r j)) = rowScore x0 w b kb r := funext fun j => by
    rw [← hS, score_apply]
    unfold rowScore
    refine Finset.sum_congr rfl fun e' _ => ?_
    rw [truncf_apply, proj_apply]
  -- the weights, named: at row `r` they are the exponentials of the scores minus their maximum
  generalize hP : exp (F := Ideal) (s := S512x2048) (φ := .f32) _ = P
  have hPv : ∀ j, P (ix2 r j)
      = Ideal.exp (rowScore x0 w b kb r j - (Finset.univ : Finset (Fin 2048)).fold max ⊥ (rowScore x0 w b kb r)) := fun j => by
    rw [← hP, weight_apply, hSv]
    exact congrArg (fun t => Ideal.exp (t - _)) (congrFun hSv j)
  refine congrArg₂ (· + ·) (congrArg₂ (· * ·) ?_ ?_) (shapeCast_1ab_ab_apply _ _ r e)
  · refine (matmul_mix_apply _ _ r e).trans (Finset.sum_congr rfl fun j _ => ?_)
    rw [truncf_apply, shapeCast_1ab_ab_apply, hPv]
  · refine (recip_apply _ r e).trans ?_
    exact congrArg (Ideal.div 1) (Finset.sum_congr rfl fun j _ => hPv j)

end Cert.Attn.Body

end
-- ==== Proof.Region0.lean ====
/-
  What the projection kernel leaves in its two output arrays.

  Its grid point `t` is a batch `n` and a block of 512 rows; the block of the `y` array it loads and the blocks of the
  two results it stores sit at the same place (batch `n`, rows 512·jb … 512·jb + 511, every feature), and the weight
  matrices and bias rows are loaded whole. So what point `t` writes back is block `t` of ONE whole-array function — the
  linear layer of `y` — and since the 64 blocks tile the array, the arrays end holding that function: the keys
  `y·Wk + bk` and the values `y·Wv + bv`.
-/
import proofs.«176371_g83305185673742_cont_9to1c4b_147_7_alg».proof.Proof.Spec
import proofs.«176371_g83305185673742_cont_9to1c4b_147_7_alg».proof.Proof.KernelPay
import proofs.«176371_g83305185673742_cont_9to1c4b_147_7_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.Attn.Region0

open Idealize.ShloMosaic Idealize.ShloMosaic.TcCoe Idealize.ShloMosaic.ValueIdx Idealize.SL.Sem Cert.Attn
open Cert.KernelIdeal Cert.KernelIdeal.Gen

variable (m : (ℓ : Loc nD τ sig) → Buf (Elt Ideal) ℓ) (ρ : Dev nD → PrngReg)

/-! ## The arrays the region finds: the arguments as launched, each bias row reshaped to [1, 160] -/

/-- The arrays region 0 reads, each at its literal type. -/
abbrev yArr (c : Dev nD) : S16x2048x160.Idx → EReal := V1 m ρ c main_arg1
abbrev wkArr (c : Dev nD) : S160x160.Idx → EReal := V1 m ρ c main_arg4
abbrev bkArr (c : Dev nD) : S1x160.Idx → EReal := V1 m ρ c main_v1
abbrev wvArr (c : Dev nD) : S160x160.Idx → EReal := V1 m ρ c main_arg6
abbrev bvArr (c : Dev nD) : S1x160.Idx → EReal := V1 m ρ c main_v2

theorem yArr_eq (c : Dev nD) : yArr m ρ c = m ((c.tc : Thread nD τ).loc main_arg1) := by
  show V1 m ρ c main_arg1 = _
  dsimp only [V1, W1, W0, hostOps0]
  after_results

theorem wkArr_eq (c : Dev nD) : wkArr m ρ c = m ((c.tc : Thread nD τ).loc main_arg4) := by
  show V1 m ρ c main_arg4 = _
  dsimp only [V1, W1, W0, hostOps0]
  after_results

theorem wvArr_eq (c : Dev nD) : wvArr m ρ c = m ((c.tc : Thread nD τ).loc main_arg6) := by
  show V1 m ρ c main_arg6 = _
  dsimp only [V1, W1, W0, hostOps0]
  after_results

theorem bkArr_eq (c : Dev nD) : bkArr m ρ c = shapeCast S1x160 (m ((c.tc : Thread nD τ).loc main_arg5)) Facts₀.shapeCasts_S160_S1x160 := by
  show V1 m ρ c main_v1 = _
  dsimp only [V1, W1, W0, hostOps0]
  after_results
  rfl

theorem bvArr_eq (c : Dev nD) : bvArr m ρ c = shapeCast S1x160 (m ((c.tc : Thread nD τ).loc main_arg7)) Facts₀.shapeCasts_S160_S1x160 := by
  show V1 m ρ c main_v2 = _
  dsimp only [V1, W1, W0, hostOps0]
  after_results
  rfl

/-- A [160] row reshaped to [1, 160], read at (0, e), is the row at e. -/
theorem row_reshape_apply (b : S160.Idx → EReal) (h : S160.ShapeCasts S1x160) (z : Fin 1) (e : Fin 160) :
    shapeCast S1x160 b h (ix2 z e) = b (ix1 e) :=
  shapeCast_apply b h (ix2 z e) (ix1 e) (by
    rw [Shape.rowMajor_val_one, Shape.rowMajor_val_two]
    show e.val = z.val * 160 + e.val
    have := z.isLt; omega)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided once over the 64 grid points -/

/-- The `y` block and both result blocks sit at the same block index on the batch and row axes, at 0 on the feature axis;
    the matrices and bias rows at block 0; the batch index is below 16 and the row-block index below 4. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_6.index t (0 : Fin 3) = win0_5.index t (0 : Fin 3) ∧ win0_6.index t (1 : Fin 3) = win0_5.index t (1 : Fin 3)
    ∧ win0_6.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) < 16 ∧ win0_5.index t (1 : Fin 3) < 4 :=
  (by decide +kernel : ∀ t : Fin grid0.N, _)

/-- Every (batch, row-block) pair is some point's. -/
theorem idx_onto : ∀ (q0 : Fin 16) (q1 : Fin 4), ∃ t : Fin cfg0.N, win0_5.index t = ![q0.val, q1.val, 0] ∧ win0_6.index t = ![q0.val, q1.val, 0] :=
  (by decide +kernel : ∀ (q0 : Fin 16) (q1 : Fin 4), ∃ t : Fin grid0.N, win0_5.index t = ![q0.val, q1.val, 0] ∧ win0_6.index t = ![q0.val, q1.val, 0])

/-! ## The two arrays -/

/-- The key array: the linear layer of `y` with `Wk`, `bk`. -/
def keys (c : Dev nD) : S16x2048x160.Idx → EReal := fun idx =>
  lin (m ((c.tc : Thread nD τ).loc main_arg1)) (m ((c.tc : Thread nD τ).loc main_arg4)) (m ((c.tc : Thread nD τ).loc main_arg5)) (idx 0) (idx 1) (idx 2)

/-- The value array: the linear layer of `y` with `Wv`, `bv`. -/
def vals (c : Dev nD) : S16x2048x160.Idx → EReal := fun idx =>
  lin (m ((c.tc : Thread nD τ).loc main_arg1)) (m ((c.tc : Thread nD τ).loc main_arg6)) (m ((c.tc : Thread nD τ).loc main_arg7)) (idx 0) (idx 1) (idx 2)

/-- WHAT POINT `t` WRITES BACK to the key array is block `t` of `keys`. -/
theorem flushed5_eq (c : Dev nD) (t : Fin cfg0.N) :
    (dat0 (V1 m ρ) c).flushed 5 t = ((cfg0.win 5).blk t).view.read (Elt Ideal) (keys m c) := by
  show (cfg0.win 5).cut (grid0.coords t) ((dat0 (V1 m ρ) c).after 5 t) = _
  rw [after0_5]
  unfold out0_5
  rw [View.canon_unit_zero hz3]
  simp only [View.ld_unit_zero (S := S1x512x160) hz3, View.ld_unit_zero (S := S160x160) hz2, View.ld_unit_zero (S := S1x160) hz2]
  funext y
  obtain ⟨z, r, e, rfl⟩ : ∃ (z : Fin 1) (r : Fin 512) (e : Fin 160), y = ix3 z r e := ⟨y 0, y 1, y 2, eq_ix3 y⟩
  obtain ⟨e00, e01, e02, e60, e61, e62, e52, e10, e11, e20, e21, e30, e31, e40, e41, b0, b1⟩ := idx_facts t
  have hz : z.val = 0 := by have := z.isLt; omega
  refine (Body.k0_pay2_apply _ _ _ z r e).trans ?_
  show (∑ d : Fin 160, yArr m ρ c (((cfg0.win 0).blk t).view.emb (ix3 (0 : Fin 1) r d)) * wkArr m ρ c (((cfg0.win 1).blk t).view.emb (ix2 d e)))
        + bkArr m ρ c (((cfg0.win 2).blk t).view.emb (ix2 (0 : Fin 1) e))
      = keys m c (((cfg0.win 5).blk t).view.emb (ix3 z r e))
  rw [yArr_eq, wkArr_eq, bkArr_eq]
  have hE : ((cfg0.win 5).blk t).view.emb (ix3 z r e)
      = ix3 (⟨win0_5.index t (0 : Fin 3), b0⟩ : Fin 16) (⟨win0_5.index t (1 : Fin 3) * 512 + r.val, by have := r.isLt; omega⟩ : Fin 2048) e := by
    funext a; apply Fin.ext
    match a with
    | ⟨0, _⟩ => show win0_5.index t (0 : Fin 3) * 1 + 1 * z.val = win0_5.index t (0 : Fin 3); omega
    | ⟨1, _⟩ => show win0_5.index t (1 : Fin 3) * 512 + 1 * r.val = win0_5.index t (1 : Fin 3) * 512 + r.val; omega
    | ⟨2, _⟩ => show win0_5.index t (2 : Fin 3) * 160 + 1 * e.val = e.val; omega
  have h0 : ∀ d : Fin 160, ((cfg0.win 0).blk t).view.emb (ix3 (0 : Fin 1) r d)
      = ix3 (⟨win0_5.index t (0 : Fin 3), b0⟩ : Fin 16) (⟨win0_5.index t (1 : Fin 3) * 512 + r.val, by have := r.isLt; omega⟩ : Fin 2048) d := fun d => by
    funext a; apply Fin.ext
    match a with
    | ⟨0, _⟩ => show win0_0.index t (0 : Fin 3) * 1 + 1 * 0 = win0_5.index t (0 : Fin 3); omega
    | ⟨1, _⟩ => show win0_0.index t (1 : Fin 3) * 512 + 1 * r.val = win0_5.index t (1 : Fin 3) * 512 + r.val; omega
    | ⟨2, _⟩ => show win0_0.index t (2 : Fin 3) * 160 + 1 * d.val = d.val; omega
  have h1 : ∀ d : Fin 160, ((cfg0.win 1).blk t).view.emb (ix2 d e) = ix2 d e := fun d => by
    funext a; apply Fin.ext
    match a with
    | ⟨0, _⟩ => show win0_1.index t (0 : Fin 2) * 160 + 1 * d.val = d.val; omega
    | ⟨1, _⟩ => show win0_1.index t (1 : Fin 2) * 160 + 1 * e.val = e.val; omega
  have h2 : ((cfg0.win 2).blk t).view.emb (ix2 (0 : Fin 1) e) = ix2 (0 : Fin 1) e := by
    funext a; apply Fin.ext
    match a with
    | ⟨0, _⟩ => show win0_2.index t (0 : Fin 2) * 1 + 1 * 0 = 0; omega
    | ⟨1, _⟩ => show win0_2.index t (1 : Fin 2) * 160 + 1 * e.val = e.val; omega
  rw [hE, h2, row_reshape_apply]
  show _ = lin _ _ _ _ _ e
  unfold lin
  refine congrArg (· + _) (Finset.sum_congr rfl fun d _ => ?_)
  rw [h0 d, h1 d]

/-- WHAT POINT `t` WRITES BACK to the value array is block `t` of `vals`. -/
theorem flushed6_eq (c : Dev nD) (t : Fin cfg0.N) :
    (dat0 (V1 m ρ) c).flushed 6 t = ((cfg0.win 6).blk t).view.read (Elt Ideal) (vals m c) := by
  show (cfg0.win 6).cut (grid0.coords t) ((dat0 (V1 m ρ) c).after 6 t) = _
  rw [after0_6]
  unfold out0_6
  rw [View.canon_unit_zero hz3]
  simp only [View.ld_unit_zero (S := S1x512x160) hz3, View.ld_unit_zero (S := S160x160) hz2, View.ld_unit_zero (S := S1x160) hz2]
  funext y
  obtain ⟨z, r, e, rfl⟩ : ∃ (z : Fin 1) (r : Fin 512) (e : Fin 160), y = ix3 z r e := ⟨y 0, y 1, y 2, eq_ix3 y⟩
  obtain ⟨e00, e01, e02, e60, e61, e62, e52, e10, e11, e20, e21, e30, e31, e40, e41, b0, b1⟩ := idx_facts t
  have hz : z.val = 0 := by have := z.isLt; omega
  refine (Body.k0_pay3_apply _ _ _ z r e).trans ?_
  show (∑ d : Fin 160, yArr m ρ c (((cfg0.win 0).blk t).view.emb (ix3 (0 : Fin 1) r d)) * wvArr m ρ c (((cfg0.win 3).blk t).view.emb (ix2 d e)))
        + bvArr m ρ c (((cfg0.win 4).blk t).view.emb (ix2 (0 : Fin 1) e))
      = vals m c (((cfg0.win 6).blk t).view.emb (ix3 z r e))
  rw [yArr_eq, wvArr_eq, bvArr_eq]
  have hE : ((cfg0.win 6).blk t).view.emb (ix3 z r e)
      = ix3 (⟨win0_5.index t (0 : Fin 3), b0⟩ : Fin 16) (⟨win0_5.index t (1 : Fin 3) * 512 + r.val, by have := r.isLt; omega⟩ : Fin 2048) e := by
    funext a; apply Fin.ext
    match a with
    | ⟨0, _⟩ => show win0_6.index t (0 : Fin 3) * 1 + 1 * z.val = win0_5.index t (0 : Fin 3); omega
    | ⟨1, _⟩ => show win0_6.index t (1 : Fin 3) * 512 + 1 * r.val = win0_5.index t (1 : Fin 3) * 512 + r.val; omega
    | ⟨2, _⟩ => show win0_6.index t (2 : Fin 3) * 160 + 1 * e.val = e.val; omega
  have h0 : ∀ d : Fin 160, ((cfg0.win 0).blk t).view.emb (ix3 (0 : Fin 1) r d)
      = ix3 (⟨win0_5.index t (0 : Fin 3), b0⟩ : Fin 16) (⟨win0_5.index t (1 : Fin 3) * 512 + r.val, by have := r.isLt; omega⟩ : Fin 2048) d := fun d => by
    funext a; apply Fin.ext
    match a with
    | ⟨0, _⟩ => show win0_0.index t (0 : Fin 3) * 1 + 1 * 0 = win0_5.index t (0 : Fin 3); omega
    | ⟨1, _⟩ => show win0_0.index t (1 : Fin 3) * 512 + 1 * r.val = win0_5.index t (1 : Fin 3) * 512 + r.val; omega
    | ⟨2, _⟩ => show win0_0.index t (2 : Fin 3) * 160 + 1 * d.val = d.val; omega
  have h1 : ∀ d : Fin 160, ((cfg0.win 3).blk t).view.emb (ix2 d e) = ix2 d e := fun d => by
    funext a; apply Fin.ext
    match a with
    | ⟨0, _⟩ => show win0_3.index t (0 : Fin 2) * 160 + 1 * d.val = d.val; omega
    | ⟨1, _⟩ => show win0_3.index t (1 : Fin 2) * 160 + 1 * e.val = e.val; omega
  have h2 : ((cfg0.win 4).blk t).view.emb (ix2 (0 : Fin 1) e) = ix2 (0 : Fin 1) e := by
    funext a; apply Fin.ext
    match a with
    | ⟨0, _⟩ => show win0_4.index t (0 : Fin 2) * 1 + 1 * 0 = 0; omega
    | ⟨1, _⟩ => show win0_4.index t (1 : Fin 2) * 160 + 1 * e.val = e.val; omega
  rw [hE, h2, row_reshape_apply]
  show _ = lin _ _ _ _ _ e
  unfold lin
  refine congrArg (· + _) (Finset.sum_congr rfl fun d _ => ?_)
  rw [h0 d, h1 d]

/-! ## The blocks tile the arrays -/

/-- An index of the key array is in point `t`'s block iff each coordinate is in the block's range on its axis. -/
theorem mem_blk5 (t : Fin cfg0.N) (i : S16x2048x160.Idx) :
    i ∈ ((cfg0.win 5).blk t).view.set ↔ ∀ a : Fin 3, win0_5.index t a * S1x512x160.size a ≤ (i a).val ∧ (i a).val < win0_5.index t a * S1x512x160.size a + S1x512x160.size a := by
  show i ∈ ((View.whole main_v3_0).slice (win0_5.rect t)).set ↔ _
  rw [View.set_slice_whole, Rect.mem_set_unit]
  exact Iff.rfl

theorem mem_blk6 (t : Fin cfg0.N) (i : S16x2048x160.Idx) :
    i ∈ ((cfg0.win 6).blk t).view.set ↔ ∀ a : Fin 3, win0_6.index t a * S1x512x160.size a ≤ (i a).val ∧ (i a).val < win0_6.index t a * S1x512x160.size a + S1x512x160.size a := by
  show i ∈ ((View.whole main_v3_1).slice (win0_6.rect t)).set ↔ _
  rw [View.set_slice_whole, Rect.mem_set_unit]
  exact Iff.rfl

/-- Every index of the key array is in the block of the point at its batch and its row's block of 512. -/
theorem cover5 (i : S16x2048x160.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht, -⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

theorem cover6 (i : S16x2048x160.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, -, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

/-! ## The arrays after the region -/

/-- The key array after region 0 is `y·Wk + bk`. -/
theorem keys_final (c : Dev nD) : (dat0 (V1 m ρ) c).arrAt 5 cfg0.N = keys m c :=
  (dat0 (V1 m ρ) c).arrAt_eq_of_cover 5 (keys m c) (fun t _ => flushed5_eq m ρ c t) cover5

/-- The value array after region 0 is `y·Wv + bv`. -/
theorem vals_final (c : Dev nD) : (dat0 (V1 m ρ) c).arrAt 6 cfg0.N = vals m c :=
  (dat0 (V1 m ρ) c).arrAt_eq_of_cover 6 (vals m c) (fun t _ => flushed6_eq m ρ c t) cover6

end Cert.Attn.Region0

end
-- ==== Proof.Region1.lean ====
/-
  What the attention kernel leaves in its output array.

  Its grid point `t` is a batch `n` and a block of 512 query rows. It loads that block of `x`, the whole `Wq` and
  `bq`, and ALL 2048 key rows and value rows of batch `n` — the arrays the projection kernel left, `y·Wk + bk` and
  `y·Wv + bv`. At row `r` and feature `e` of the block its body is the attention output of query row 512·jb + r of
  batch `n`, normalised after the weighted sum, plus `x`. So what point `t` writes back is block `t` of the whole-array
  function `result`, and the 64 blocks tile the array.
-/
import proofs.«176371_g83305185673742_cont_9to1c4b_147_7_alg».proof.Proof.Region0

set_option maxRecDepth 16384

noncomputable section

namespace Cert.Attn.Region1

open Idealize.ShloMosaic Idealize.ShloMosaic.TcCoe Idealize.ShloMosaic.ValueIdx Idealize.SL.Sem Cert.Attn
open Cert.KernelIdeal Cert.KernelIdeal.Gen
open Cert.Attn.Region0 (hz2 hz3 row_reshape_apply keys vals)

variable (m : (ℓ : Loc nD τ sig) → Buf (Elt Ideal) ℓ) (ρ : Dev nD → PrngReg)

/-! ## The arrays the region finds -/

/-- The arrays region 1 reads, each at its literal type. -/
abbrev xArr (c : Dev nD) : S16x2048x160.Idx → EReal := V2 m ρ c main_arg0
abbrev wqArr (c : Dev nD) : S160x160.Idx → EReal := V2 m ρ c main_arg2
abbrev bqArr (c : Dev nD) : S1x160.Idx → EReal := V2 m ρ c main_v0
abbrev kArr (c : Dev nD) : S16x2048x160.Idx → EReal := V2 m ρ c main_v3_0
abbrev vArr (c : Dev nD) : S16x2048x160.Idx → EReal := V2 m ρ c main_v3_1

theorem xArr_eq (c : Dev nD) : xArr m ρ c = m ((c.tc : Thread nD τ).loc main_arg0) := by
  show W2 m ρ c (Proc.devRef .tc main_arg0) = _
  rw [W2_of_ne m ρ c main_arg0 (by decide)]
  dsimp only [W1, W0, hostOps0]
  after_results

theorem wqArr_eq (c : Dev nD) : wqArr m ρ c = m ((c.tc : Thread nD τ).loc main_arg2) := by
  show W2 m ρ c (Proc.devRef .tc main_arg2) = _
  rw [W2_of_ne m ρ c main_arg2 (by decide)]
  dsimp only [W1, W0, hostOps0]
  after_results

theorem bqArr_eq (c : Dev nD) : bqArr m ρ c = shapeCast S1x160 (m ((c.tc : Thread nD τ).loc main_arg3)) Facts₀.shapeCasts_S160_S1x160 := by
  show W2 m ρ c (Proc.devRef .tc main_v0) = _
  rw [W2_of_ne m ρ c main_v0 (by decide)]
  dsimp only [W1, W0, hostOps0]
  after_results
  rfl

/-- The key rows region 1 reads are what region 0 left: `y·Wk + bk`. -/
theorem kArr_eq (c : Dev nD) : kArr m ρ c = keys m c :=
  (W2_arr m ρ c 5).trans (Region0.keys_final m ρ c)

/-- The value rows region 1 reads are what region 0 left: `y·Wv + bv`. -/
theorem vArr_eq (c : Dev nD) : vArr m ρ c = vals m c :=
  (W2_arr m ρ c 6).trans (Region0.vals_final m ρ c)

/-! ## The index maps, decided once over the 64 grid points -/

theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_5.index t (0 : Fin 3) < 16 ∧ win1_5.index t (1 : Fin 3) < 4 :=
  (by decide +kernel : ∀ t : Fin grid1.N, _)

theorem idx_onto : ∀ (q0 : Fin 16) (q1 : Fin 4), ∃ t : Fin cfg1.N, win1_5.index t = ![q0.val, q1.val, 0] :=
  (by decide +kernel : ∀ (q0 : Fin 16) (q1 : Fin 4), ∃ t : Fin grid1.N, win1_5.index t = ![q0.val, q1.val, 0])

/-! ## The result array -/

/-- The result array: the attention output of the eight argument arrays as launched. -/
def resultArr (c : Dev nD) : S16x2048x160.Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- WHAT POINT `t` WRITES BACK is block `t` of `resultArr`. -/
theorem flushed_eq (c : Dev nD) (t : Fin cfg1.N) :
    (dat1 (V2 m ρ) c).flushed 5 t = ((cfg1.win 5).blk t).view.read (Elt Ideal) (resultArr m c) := by
  show (cfg1.win 5).cut (grid1.coords t) ((dat1 (V2 m ρ) c).after 5 t) = _
  rw [after1_5]
  unfold out1_5
  rw [View.canon_unit_zero hz3]
  simp only [View.ld_unit_zero (S := S1x512x160) hz3, View.ld_unit_zero (S := S160x160) hz2, View.ld_unit_zero (S := S1x160) hz2,
    View.ld_unit_zero (S := S1x2048x160) hz3]
  funext y
  obtain ⟨z, r, e, rfl⟩ : ∃ (z : Fin 1) (r : Fin 512) (e : Fin 160), y = ix3 z r e := ⟨y 0, y 1, y 2, eq_ix3 y⟩
  obtain ⟨e00, e01, e02, e52, e30, e31, e32, e40, e41, e42, e10, e11, e20, e21, b0, b1⟩ := idx_facts t
  have hz : z.val = 0 := by have := z.isLt; omega
  refine (Body.k1_pay1_apply _ _ _ _ _ z r e).trans ?_
  -- the batch and the query row of this element
  have hR : win1_5.index t (1 : Fin 3) * 512 + r.val < 2048 := by have := r.isLt; omega
  have hE : ((cfg1.win 5).blk t).view.emb (ix3 z r e)
      = ix3 (⟨win1_5.index t (0 : Fin 3), b0⟩ : Fin 16) (⟨win1_5.index t (1 : Fin 3) * 512 + r.val, hR⟩ : Fin 2048) e := by
    funext a; apply Fin.ext
    match a with
    | ⟨0, _⟩ => show win1_5.index t (0 : Fin 3) * 1 + 1 * z.val = win1_5.index t (0 : Fin 3); omega
    | ⟨1, _⟩ => show win1_5.index t (1 : Fin 3) * 512 + 1 * r.val = win1_5.index t (1 : Fin 3) * 512 + r.val; omega
    | ⟨2, _⟩ => show win1_5.index t (2 : Fin 3) * 160 + 1 * e.val = e.val; omega
  have h0 : ∀ d : Fin 160, ((cfg1.win 0).blk t).view.emb (ix3 (0 : Fin 1) r d)
      = ix3 (⟨win1_5.index t (0 : Fin 3), b0⟩ : Fin 16) (⟨win1_5.index t (1 : Fin 3) * 512 + r.val, hR⟩ : Fin 2048) d := fun d => by
    funext a; apply Fin.ext
    match a with
    | ⟨0, _⟩ => show win1_0.index t (0 : Fin 3) * 1 + 1 * 0 = win1_5.index t (0 : Fin 3); omega
    | ⟨1, _⟩ => show win1_0.index t (1 : Fin 3) * 512 + 1 * r.val = win1_5.index t (1 : Fin 3) * 512 + r.val; omega
    | ⟨2, _⟩ => show win1_0.index t (2 : Fin 3) * 160 + 1 * d.val = d.val; omega
  have h1 : ∀ d e' : Fin 160, ((cfg1.win 1).blk t).view.emb (ix2 d e') = ix2 d e' := fun d e' => by
    funext a; apply Fin.ext
    match a with
    | ⟨0, _⟩ => show win1_1.index t (0 : Fin 2) * 160 + 1 * d.val = d.val; omega
    | ⟨1, _⟩ => show win1_1.index t (1 : Fin 2) * 160 + 1 * e'.val = e'.val; omega
  have h2 : ∀ e' : Fin 160, ((cfg1.win 2).blk t).view.emb (ix2 (0 : Fin 1) e') = ix2 (0 : Fin 1) e' := fun e' => by
    funext a; apply Fin.ext
    match a with
    | ⟨0, _⟩ => show win1_2.index t (0 : Fin 2) * 1 + 1 * 0 = 0; omega
    | ⟨1, _⟩ => show win1_2.index t (1 : Fin 2) * 160 + 1 * e'.val = e'.val; omega
  have h3 : ∀ (j : Fin 2048) (e' : Fin 160), ((cfg1.win 3).blk t).view.emb (ix3 (0 : Fin 1) j e')
      = ix3 (⟨win1_5.index t (0 : Fin 3), b0⟩ : Fin 16) j e' := fun j e' => by
    funext a; apply Fin.ext
    match a with
    | ⟨0, _⟩ => show win1_3.index t (0 : Fin 3) * 1 + 1 * 0 = win1_5.index t (0 : Fin 3); omega
    | ⟨1, _⟩ => show win1_3.index t (1 : Fin 3) * 2048 + 1 * j.val = j.val; omega
    | ⟨2, _⟩ => show win1_3.index t (2 : Fin 3) * 160 + 1 * e'.val = e'.val; omega
  have h4 : ∀ (j : Fin 2048) (e' : Fin 160), ((cfg1.win 4).blk t).view.emb (ix3 (0 : Fin 1) j e')
      = ix3 (⟨win1_5.index t (0 : Fin 3), b0⟩ : Fin 16) j e' := fun j e' => by
    funext a; apply Fin.ext
    match a with
    | ⟨0, _⟩ => show win1_4.index t (0 : Fin 3) * 1 + 1 * 0 = win1_5.index t (0 : Fin 3); omega
    | ⟨1, _⟩ => show win1_4.index t (1 : Fin 3) * 2048 + 1 * j.val = j.val; omega
    | ⟨2, _⟩ => show win1_4.index t (2 : Fin 3) * 160 + 1 * e'.val = e'.val; omega
  -- the projected query row
  have hq : ∀ e' : Fin 160, Body.projRow (iblk1 (V2 m ρ) c 0 t) (iblk1 (V2 m ρ) c 1 t) (iblk1 (V2 m ρ) c 2 t) r e'
      = lin (m ((c.tc : Thread nD τ).loc main_arg0)) (m ((c.tc : Thread nD τ).loc main_arg2)) (m ((c.tc : Thread nD τ).loc main_arg3))
          ⟨win1_5.index t (0 : Fin 3), b0⟩ ⟨win1_5.index t (1 : Fin 3) * 512 + r.val, hR⟩ e' := fun e' => by
    show (∑ d : Fin 160, xArr m ρ c (((cfg1.win 0).blk t).view.emb (ix3 (0 : Fin 1) r d)) * wqArr m ρ c (((cfg1.win 1).blk t).view.emb (ix2 d e')))
          + bqArr m ρ c (((cfg1.win 2).blk t).view.emb (ix2 (0 : Fin 1) e')) = _
    rw [xArr_eq, wqArr_eq, bqArr_eq, h2, row_reshape_apply]
    unfold lin
    refine congrArg (· + _) (Finset.sum_congr rfl fun d _ => ?_)
    rw [h0 d, h1 d e']
  -- the key and value rows
  have hk : ∀ (j : Fin 2048) (e' : Fin 160), iblk1 (V2 m ρ) c 3 t (ix3 (0 : Fin 1) j e')
      = lin (m ((c.tc : Thread nD τ).loc main_arg1)) (m ((c.tc : Thread nD τ).loc main_arg4)) (m ((c.tc : Thread nD τ).loc main_arg5))
          ⟨win1_5.index t (0 : Fin 3), b0⟩ j e' := fun j e' => by
    show kArr m ρ c (((cfg1.win 3).blk t).view.emb (ix3 (0 : Fin 1) j e')) = _
    rw [kArr_eq, h3]
    rfl
  have hv : ∀ (j : Fin 2048) (e' : Fin 160), iblk1 (V2 m ρ) c 4 t (ix3 (0 : Fin 1) j e')
      = lin (m ((c.tc : Thread nD τ).loc main_arg1)) (m ((c.tc : Thread nD τ).loc main_arg6)) (m ((c.tc : Thread nD τ).loc main_arg7))
          ⟨win1_5.index t (0 : Fin 3), b0⟩ j e' := fun j e' => by
    show vArr m ρ c (((cfg1.win 4).blk t).view.emb (ix3 (0 : Fin 1) j e')) = _
    rw [vArr_eq, h4]
    rfl
  have hx : iblk1 (V2 m ρ) c 0 t (ix3 (0 : Fin 1) r e)
      = m ((c.tc : Thread nD τ).loc main_arg0) (ix3 (⟨win1_5.index t (0 : Fin 3), b0⟩ : Fin 16) (⟨win1_5.index t (1 : Fin 3) * 512 + r.val, hR⟩ : Fin 2048) e) := by
    show xArr m ρ c (((cfg1.win 0).blk t).view.emb (ix3 (0 : Fin 1) r e)) = _
    rw [xArr_eq, h0]
  -- the scores of this query row
  have hS : Body.rowScore (iblk1 (V2 m ρ) c 0 t) (iblk1 (V2 m ρ) c 1 t) (iblk1 (V2 m ρ) c 2 t) (iblk1 (V2 m ρ) c 3 t) r
      = scores (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨win1_5.index t (0 : Fin 3), b0⟩ ⟨win1_5.index t (1 : Fin 3) * 512 + r.val, hR⟩ := by
    funext j
    unfold Body.rowScore scores score
    refine Finset.sum_congr rfl fun e' _ => ?_
    rw [hq e', hk j e']
  rw [hS, hx]
  simp only [hv]
  show _ = resultArr m c (((cfg1.win 5).blk t).view.emb (ix3 z r e))
  rw [hE]
  rfl

/-! ## The blocks tile the array -/

/-- An index of the result array is in point `t`'s block iff each coordinate is in the block's range on its axis. -/
theorem mem_blk (t : Fin cfg1.N) (i : S16x2048x160.Idx) :
    i ∈ ((cfg1.win 5).blk t).view.set ↔ ∀ a : Fin 3, win1_5.index t a * S1x512x160.size a ≤ (i a).val ∧ (i a).val < win1_5.index t a * S1x512x160.size a + S1x512x160.size a := by
  show i ∈ ((View.whole main_v4).slice (win1_5.rect t)).set ↔ _
  rw [View.set_slice_whole, Rect.mem_set_unit]
  exact Iff.rfl

/-- Every index of the result array is in the block of the point at its batch and its row's block of 512. -/
theorem cover (i : S16x2048x160.Idx) : ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 160 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 160 ≤ (i 2).val ∧ (i 2).val < win1_5.index t (2 : Fin 3) * 160 + 160; omega

/-- The result array after region 1 is the attention output of the arguments. -/
theorem result_final (c : Dev nD) : (dat1 (V2 m ρ) c).arrAt 5 cfg1.N = resultArr m c :=
  (dat1 (V2 m ρ) c).arrAt_eq_of_cover 5 (resultArr m c) (fun t _ => flushed_eq m ρ c t) cover

end Cert.Attn.Region1

end
-- ==== Proof.RefValue.lean ====
/-
  The reference's result, read one operation at a time, is `outBefore` of the eight argument arrays: three linear
  layers, the batched scores, a row maximum folded from `-∞` (and once more compared with `-∞`), the exponentials of
  the differences, their row sums from `0`, each weight divided by its row's sum, the weighted sum of the values, plus
  `x`.
-/
import proofs.«176371_g83305185673742_cont_9to1c4b_147_7_alg».proof.Proof.Spec
import proofs.«176371_g83305185673742_cont_9to1c4b_147_7_alg».proof.Proof.Gen.ReferenceIdeal.Read

noncomputable section

namespace Cert.Attn.Ref

open Idealize.ShloMosaic Idealize.ShloMosaic.ValueIdx Cert.Attn
open Cert.ReferenceIdeal Cert.ReferenceIdeal.Gen Cert.ReferenceIdeal.Read

/-! ## A linear layer: a row of the array times a column of the matrix, plus the bias entry -/

/-- The first linear layer's element (the dot product plus the broadcast bias) is `lin`. -/
theorem lin_v3 (X : (⟨S16x2048x160, .f32⟩ : BufTy).Contents (Elt Ideal))
    (W : (⟨S160x160, .f32⟩ : BufTy).Contents (Elt Ideal)) (b : (⟨S160, .f32⟩ : BufTy).Contents (Elt Ideal))
    (n : Fin 16) (r : Fin 2048) (e : Fin 160) :
    val_main_v3 (F := Ideal) X W b (ix3 n r e) = lin X W b n r e := by
  have hl : ∀ k : Fin 160, lidx_main_v0 (ix3 n r e) k = ix3 n r k := fun k =>
    funext fun a => Fin.ext (by match a with | ⟨0, _⟩ => rfl | ⟨1, _⟩ => rfl | ⟨2, _⟩ => rfl)
  have hr : ∀ k : Fin 160, ridx_main_v0 (ix3 n r e) k = ix2 k e := fun k =>
    funext fun a => Fin.ext (by match a with | ⟨0, _⟩ => rfl | ⟨1, _⟩ => rfl)
  have hb : idx_main_v1 (idx_main_v2 (ix3 n r e)) = ix1 e :=
    funext fun a => Fin.ext (by match a with | ⟨0, _⟩ => rfl)
  rw [val_main_v3_apply, val_main_v0_apply, val_main_v2_apply, val_main_v1_apply, hb]
  simp only [hl, hr, Ideal.addf_def]
  rfl

theorem lin_v7 (X : (⟨S16x2048x160, .f32⟩ : BufTy).Contents (Elt Ideal))
    (W : (⟨S160x160, .f32⟩ : BufTy).Contents (Elt Ideal)) (b : (⟨S160, .f32⟩ : BufTy).Contents (Elt Ideal))
    (n : Fin 16) (r : Fin 2048) (e : Fin 160) :
    val_main_v7 (F := Ideal) X W b (ix3 n r e) = lin X W b n r e := lin_v3 X W b n r e

theorem lin_v11 (X : (⟨S16x2048x160, .f32⟩ : BufTy).Contents (Elt Ideal))
    (W : (⟨S160x160, .f32⟩ : BufTy).Contents (Elt Ideal)) (b : (⟨S160, .f32⟩ : BufTy).Contents (Elt Ideal))
    (n : Fin 16) (r : Fin 2048) (e : Fin 160) :
    val_main_v11 (F := Ideal) X W b (ix3 n r e) = lin X W b n r e := lin_v3 X W b n r e

section
variable (x0 x1 : (⟨S16x2048x160, .f32⟩ : BufTy).Contents (Elt Ideal))
  (x2 : (⟨S160x160, .f32⟩ : BufTy).Contents (Elt Ideal)) (x3 : (⟨S160, .f32⟩ : BufTy).Contents (Elt Ideal))
  (x4 : (⟨S160x160, .f32⟩ : BufTy).Contents (Elt Ideal)) (x5 : (⟨S160, .f32⟩ : BufTy).Contents (Elt Ideal))

/-! ## The scores: the batched dot product of the query rows with the key rows -/

theorem scores_v12 (n : Fin 16) (i j : Fin 2048) :
    val_main_v12 (F := Ideal) x0 x1 x2 x3 x4 x5 (ix3 n i j) = scores x0 x1 x2 x3 x4 x5 n i j := by
  have hl : ∀ k : Fin 160, lidx_main_v12 (ix3 n i j) k = ix3 n i k := fun k =>
    funext fun a => Fin.ext (by match a with | ⟨0, _⟩ => rfl | ⟨1, _⟩ => rfl | ⟨2, _⟩ => rfl)
  have hr : ∀ k : Fin 160, ridx_main_v12 (ix3 n i j) k = ix3 n j k := fun k =>
    funext fun a => Fin.ext (by match a with | ⟨0, _⟩ => rfl | ⟨1, _⟩ => rfl | ⟨2, _⟩ => rfl)
  rw [val_main_v12_apply]
  simp only [hl, hr, lin_v3, lin_v7]
  rfl

/-! ## The row maximum: the fold of `max` from `-∞` over the row, compared once more with `-∞` -/

theorem rowMax_v15 (n : Fin 16) (i : Fin 2048) :
    val_main_v15 (F := Ideal) x0 x1 x2 x3 x4 x5 (ix2 n i) = rowMax (scores x0 x1 x2 x3 x4 x5) n i := by
  have hR : S16x2048x2048.Reduces [2] S16x2048 := by decide
  have hk : ∀ k : Fin 2048, hR.lift (ix2 n i) k = ix3 n i k := fun k =>
    funext fun a => Fin.ext (by match a with | ⟨0, _⟩ => rfl | ⟨1, _⟩ => rfl | ⟨2, _⟩ => rfl)
  rw [val_main_v15_apply, val_main_v14_apply, val_main_cst_0_apply]
  unfold val_main_v13
  rw [Host.reduce_eq_fold_single FloatOps.maximumf _ _ reducesTo_S16x2048x2048_S16x2048_d2 hR h_S_,
    val_main_cst_apply]
  simp only [Ideal.ofBits_def, Ideal.maximumf_def, ofBits_neg_inf]
  rw [max_bot_left]
  unfold rowMax
  show (Finset.univ : Finset (Fin 2048)).fold max ⊥
      (val_main_v12 (F := Ideal) x0 x1 x2 x3 x4 x5 ∘ hR.lift (ix2 n i)) = _
  refine congrArg (fun f : Fin 2048 → EReal => (Finset.univ : Finset (Fin 2048)).fold max ⊥ f)
    (funext fun (k : Fin 2048) => ?_)
  exact (congrArg (val_main_v12 (F := Ideal) x0 x1 x2 x3 x4 x5) (hk k)).trans (scores_v12 x0 x1 x2 x3 x4 x5 n i k)

/-! ## The weights, their row sums, and the normalised weights -/

theorem weight_v19 (n : Fin 16) (i j : Fin 2048) :
    val_main_v19 (F := Ideal) x0 x1 x2 x3 x4 x5 (ix3 n i j) = weight (scores x0 x1 x2 x3 x4 x5) n i j := by
  have hi : idx_main_v16 (idx_main_v17 (ix3 n i j)) = ix2 n i :=
    funext fun a => Fin.ext (by match a with | ⟨0, _⟩ => rfl | ⟨1, _⟩ => rfl)
  rw [val_main_v19_apply, val_main_v18_apply, val_main_v17_apply, val_main_v16_apply, hi, rowMax_v15, scores_v12]
  rfl

theorem total_v20 (n : Fin 16) (i : Fin 2048) :
    val_main_v20 (F := Ideal) x0 x1 x2 x3 x4 x5 (ix2 n i) = total (scores x0 x1 x2 x3 x4 x5) n i := by
  have hi : ∀ k : Fin 2048, idx_main_v20 (ix2 n i) k = ix3 n i k := fun k =>
    funext fun a => Fin.ext (by match a with | ⟨0, _⟩ => rfl | ⟨1, _⟩ => rfl | ⟨2, _⟩ => rfl)
  rw [val_main_v20_apply, val_main_cst_1_apply]
  simp only [hi, weight_v19, Ideal.ofBits_def, ofBits_zero, zero_add]
  rfl

theorem normalized_v23 (n : Fin 16) (i j : Fin 2048) :
    val_main_v23 (F := Ideal) x0 x1 x2 x3 x4 x5 (ix3 n i j)
      = Ideal.div (weight (scores x0 x1 x2 x3 x4 x5) n i j) (total (scores x0 x1 x2 x3 x4 x5) n i) := by
  have hi : idx_main_v21 (idx_main_v22 (ix3 n i j)) = ix2 n i :=
    funext fun a => Fin.ext (by match a with | ⟨0, _⟩ => rfl | ⟨1, _⟩ => rfl)
  rw [val_main_v23_apply, val_main_v22_apply, val_main_v21_apply, hi, total_v20, weight_v19]
  rfl

end

/-! ## The result: the normalised weights times the values, plus `x` -/

theorem reference_eq (x0 x1 : (⟨S16x2048x160, .f32⟩ : BufTy).Contents (Elt Ideal))
    (x2 : (⟨S160x160, .f32⟩ : BufTy).Contents (Elt Ideal)) (x3 : (⟨S160, .f32⟩ : BufTy).Contents (Elt Ideal))
    (x4 : (⟨S160x160, .f32⟩ : BufTy).Contents (Elt Ideal)) (x5 : (⟨S160, .f32⟩ : BufTy).Contents (Elt Ideal))
    (x6 : (⟨S160x160, .f32⟩ : BufTy).Contents (Elt Ideal)) (x7 : (⟨S160, .f32⟩ : BufTy).Contents (Elt Ideal))
    (n : Fin 16) (i : Fin 2048) (e : Fin 160) :
    val_main_v25 (F := Ideal) x0 x1 x2 x3 x4 x5 x6 x7 (ix3 n i e) = outBefore x0 x1 x2 x3 x4 x5 x6 x7 n i e := by
  have hl : ∀ k : Fin 2048, lidx_main_v24 (ix3 n i e) k = ix3 n i k := fun k =>
    funext fun a => Fin.ext (by match a with | ⟨0, _⟩ => rfl | ⟨1, _⟩ => rfl | ⟨2, _⟩ => rfl)
  have hr : ∀ k : Fin 2048, ridx_main_v24 (ix3 n i e) k = ix3 n k e := fun k =>
    funext fun a => Fin.ext (by match a with | ⟨0, _⟩ => rfl | ⟨1, _⟩ => rfl | ⟨2, _⟩ => rfl)
  rw [val_main_v25_apply, val_main_v24_apply]
  simp only [hl, hr, normalized_v23, lin_v11, Ideal.addf_def]
  rfl

end Cert.Attn.Ref

end
-- ==== Proof.Finite.lean ====
/-
  What the precondition says: every entry of every argument array is a real number (its absolute value is below `+∞`).

  The predicate is a conjunction of eight one-bit words, one per array: "every `|a i| < +∞`", an `and`-reduction over all
  axes of the elementwise comparison. A conjunction of one-bit words is 1 exactly when each is; an `and`-reduction into a
  single index is 1 only if every element is 1; the comparison at an element is `max x (-x) < ⊤` on the extended reals,
  which excludes `x = ⊤` (then `max x (-x) = ⊤`) and `x = ⊥` (then `-x = ⊤`), so `x` is a real number.
-/
import proofs.«176371_g83305185673742_cont_9to1c4b_147_7_alg».proof.Proof.RealLaw
import proofs.«176371_g83305185673742_cont_9to1c4b_147_7_alg».proof.Defs
import proofs.«176371_g83305185673742_cont_9to1c4b_147_7_alg».proof.Proof.Gen.Pre_finite_inputs
import Idealize.ShloMosaic.Lib.ReduceAll
import Idealize.ShloMosaic.Lib.ValueIdx

noncomputable section

namespace Cert.Attn.Finite

open Idealize.ShloMosaic Cert.Attn

/-- The pattern of `+inf` denotes `⊤`. -/
theorem ofBits_pos_inf : Ideal.ofBits .f32 0x7F800000#32 = ⊤ := by
  simp [Ideal.ofBits, Ideal.ieee]

/-- The scalar shape has one index. -/
instance subsingleton_scalar_idx : Subsingleton Cert.Pre_finite_inputs.S_.Idx :=
  ⟨fun a b => funext fun d => d.elim0⟩

/-- An extended real whose absolute value `max x (-x)` is below `⊤` is a real number. -/
theorem isReal_of_abs_lt_top {x : EReal} (h : max x (-x) < ⊤) : IsReal x := by
  rw [max_lt_iff] at h
  refine isReal_of_ne (ne_of_lt h.1) ?_
  rintro rfl
  exact absurd h.2 (by simp)

/-- One conjunct of the predicate: if "every `|a i|` is below `+inf`" reduces to 1, every entry of `a` is real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ValueIdx.ix0 = 1#1) :
    ∀ i, IsReal (a i) := by
  intro i
  have h1 := Host.reduce_andi_all _ _ hr hu ValueIdx.ix0 e i
  have h2 : Ideal.cmp .olt (max (a i) (-(a i))) (Ideal.ofBits .f32 0x7F800000#32) = 1#1 := h1
  rw [ofBits_pos_inf] at h2
  refine isReal_of_abs_lt_top ?_
  by_contra hn
  simp [Ideal.cmp, hn] at h2

/-- A conjunction of two one-bit words read at an index: it is 1 exactly when both are. -/
theorem andi_apply_eq_one {s : Shape} (x y : IVec s 1) (i : s.Idx) (h : andi x y i = 1#1) :
    x i = 1#1 ∧ y i = 1#1 :=
  IntOp.andi_eq_one.1 h

/-- If `finite_inputs` evaluates to all ones on eight arrays of extended reals, every entry of each is real. -/
theorem isReal_of_pre [hP : Cert.Pre_finite_inputs.Facts]
    (a0 a1 : FVec Ideal Cert.Pre_finite_inputs.S16x2048x160 .f32) (a2 : FVec Ideal Cert.Pre_finite_inputs.S160x160 .f32)
    (a3 : FVec Ideal Cert.Pre_finite_inputs.S160 .f32) (a4 : FVec Ideal Cert.Pre_finite_inputs.S160x160 .f32)
    (a5 : FVec Ideal Cert.Pre_finite_inputs.S160 .f32) (a6 : FVec Ideal Cert.Pre_finite_inputs.S160x160 .f32)
    (a7 : FVec Ideal Cert.Pre_finite_inputs.S160 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1, Cert.Pre_finite_inputs.fn_part2] at h0
  obtain ⟨h0, e7⟩ := andi_apply_eq_one _ _ _ h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Attn.Finite

end
-- ==== Proof.lean ====
/-
  The certificate: a single-head cross-attention layer with a residual, as two TensorCore kernels, against its jnp
  reference, over the extended reals.

  Both programs compute, for `q = x·Wq + bq`, `k = y·Wk + bk`, `v = y·Wv + bv`, the softmax of the scores
  `q·kᵀ` along the key axis applied to `v`, plus `x`. The kernel's first pallas_call writes `k` and `v`; its second
  one, per block of 512 query rows, forms the scores against all 2048 keys, subtracts the row maximum, exponentiates,
  takes the weighted sum of the values and multiplies it by the reciprocal of the weights' sum. The reference divides
  every weight by the sum before the weighted sum. On the extended reals the two agree where every argument entry is a
  real number, which is what the precondition says (RealLaw.lean, Spec.lean); a change of float format is the identity
  there, and the matrix unit's product and the host's `dot_general` are the same sum.

  The kernel's side: what each pallas_call leaves in its output arrays, read off the generated frame's proof data
  (Region0.lean, Region1.lean over the bodies' values KernelPay.lean), and the run of @main with the result named
  (KernelRun.lean). The reference's side: its generated run, read one operation at a time (RefValue.lean). The
  precondition opened: Finite.lean. The ideal pass rewrote nothing, so `preserves` is `True`.
-/
import proofs.«176371_g83305185673742_cont_9to1c4b_147_7_alg».proof.Defs
import proofs.«176371_g83305185673742_cont_9to1c4b_147_7_alg».proof.Proof.Gen.Kernel
import proofs.«176371_g83305185673742_cont_9to1c4b_147_7_alg».proof.Proof.Gen.Kernel.Frame
import proofs.«176371_g83305185673742_cont_9to1c4b_147_7_alg».proof.Proof.Gen.KernelIdeal
import proofs.«176371_g83305185673742_cont_9to1c4b_147_7_alg».proof.Proof.Gen.KernelIdeal.Frame
import proofs.«176371_g83305185673742_cont_9to1c4b_147_7_alg».proof.Proof.Gen.ReferenceIdeal
import proofs.«176371_g83305185673742_cont_9to1c4b_147_7_alg».proof.Proof.Gen.Pre_finite_inputs
import proofs.«176371_g83305185673742_cont_9to1c4b_147_7_alg».proof.Proof.Gen.ReferenceIdeal.Run
import proofs.«176371_g83305185673742_cont_9to1c4b_147_7_alg».proof.Proof.Gen.ReferenceIdeal.Read
import proofs.«176371_g83305185673742_cont_9to1c4b_147_7_alg».proof.Proof.KernelRun
import proofs.«176371_g83305185673742_cont_9to1c4b_147_7_alg».proof.Proof.Region1
import proofs.«176371_g83305185673742_cont_9to1c4b_147_7_alg».proof.Proof.RefValue
import proofs.«176371_g83305185673742_cont_9to1c4b_147_7_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's result array ends at `result` of the argument arrays (the two regions' values through the
    run of @main) and the reference's at its operations' term of arguments that agree, which is `outBefore`; the
    precondition makes every argument entry real, where `outAfter` and `outBefore` agree. -/
theorem algebraic : Cert.algebraic_KernelIdeal_ReferenceIdeal := by
  intro m ρ m' ρ' hpre hagree
  refine ⟨fun c => Region1.resultArr m c, ?_, ?_⟩
  · exact (θ_run Cert.KernelIdeal.defs _ _).mono
      (fun r h c => ⟨(h c).1.trans (Region1.result_final m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨r0, r1, r2, r3, r4, r5, r6, r7⟩ := Finite.isReal_of_pre _ _ _ _ _ _ _ _ (hpre c)
    obtain ⟨a0, a1, a2, a3, a4, a5, a6, a7⟩ := hagree c
    rw [Cert.ReferenceIdeal.Read.val_main_v25_eq, a0, a1, a2, a3, a4, a5, a6, a7]
    funext idx
    obtain ⟨n, i, e, rfl⟩ : ∃ (n : Fin 16) (i : Fin 2048) (e : Fin 160), idx = ix3 n i e := ⟨idx 0, idx 1, idx 2, eq_ix3 idx⟩
    rw [Ref.reference_eq]
    exact (outAfter_eq_outBefore r0 r1 r2 r3 r4 r5 r6 r7 n i e).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
